-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S1024 : Shape := ⟨1, ![1024]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x256 .f32) (main_arg1 : FVec F S1024x256 .f32) (main_arg2 : FVec F S1024 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S1024x256 : Shape := ⟨2, ![1024, 256]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S256x256 : Shape := ⟨2, ![256, 256]⟩
abbrev S256x1 : Shape := ⟨2, ![256, 1]⟩
abbrev S256x1024 : Shape := ⟨2, ![256, 1024]⟩

abbrev nBuf : Space → Nat
  | .hbm => 19
  | .vmem => 9
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024, .f32⟩
  | .hbm, ⟨3, _⟩ => ⟨S1024x256, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x256, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S1024x256, .bf16⟩
  | .hbm, ⟨17, _⟩ => ⟨S1024x256, .bf16⟩
  | .hbm, ⟨18, _⟩ => ⟨S1024x1024, .f32⟩
  | .local _ .vmem, ⟨0, _⟩ => ⟨S256x256, .bf16⟩
  | .local _ .vmem, ⟨1, _⟩ => ⟨S256x256, .bf16⟩
  | .local _ .vmem, ⟨2, _⟩ => ⟨S1024x256, .bf16⟩
  | .local _ .vmem, ⟨3, _⟩ => ⟨S256x1, .f32⟩
  | .local _ .vmem, ⟨4, _⟩ => ⟨S256x1, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S1024x256_S1024_d1 : S1024x256.ReducesTo [1] S1024
  h_S_ : 0 < S_.numel
  bcast_S1024_S1024x1_0 : S1024.BroadcastsInDim S1024x1 (![0] : Fin 1 → Fin S1024x1.rank)
  bcast_S_S1024 : S_.BroadcastsInDim S1024 (![] : Fin 0 → Fin S1024.rank)
  shapeCasts_S1024_S1x1024 : S1024.ShapeCasts S1x1024
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S256x1_S256x1024 : S256x1.Broadcasts S256x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  dot_S256x256_S1024x256_S256x1024_1_1_0_0_n_n_wf : DotDims.WF S256x256 S1024x256 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S1024x256.size a
  hwx0_0 : ∀ i : grid0.Coords, EltTy.bits .bf16 = 32 ∨ (Rect.block (s := S1024x256) S256x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S1024x1.size a
  hwx0_2 : ∀ i : grid0.Coords, EltTy.bits .f32 = 32 ∨ (Rect.block (s := S1024x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S1024x1024.size a
  hwx0_5 : ∀ i : grid0.Coords, EltTy.bits .f32 = 32 ∨ (Rect.block (s := S1024x1024) S256x1024.size (cc0_transform_5 i) (hinb0_5 i)).WholeWords (EltTy.packing .f32)

variable [Facts₀]

def dot_S256x256_S1024x256_S256x1024_1_1_0_0_n_n : DotDims S256x256 S1024x256 S256x1024 where
  lhsContracting := [1]
  rhsContracting := [1]
  lhsNonContracting := [0]
  rhsNonContracting := [0]
  lhsBatch := []
  rhsBatch := []
  wf := dot_S256x256_S1024x256_S256x1024_1_1_0_0_n_n_wf

abbrev win0_0 : Pipeline.Window sig grid0 :=
  Pipeline.Window.ofSpec (Memref.whole main_v10) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x256 : Shape := ⟨2, ![1024, 256]⟩
abbrev S1024 : Shape := ⟨1, ![1024]⟩
abbrev S1024x1x256 : Shape := ⟨3, ![1024, 1, 256]⟩
abbrev S1x1024x256 : Shape := ⟨3, ![1, 1024, 256]⟩
abbrev S1024x1024x256 : Shape := ⟨3, ![1024, 1024, 256]⟩
abbrev S_ : Shape := ⟨0, ![]⟩
abbrev S1024x1024 : Shape := ⟨2, ![1024, 1024]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024, .f32⟩
  | .hbm, ⟨3, _⟩ => ⟨S1024x1x256, .f32⟩
  | .hbm, ⟨4, _⟩ => ⟨S1x1024x256, .f32⟩
  | .hbm, ⟨5, _⟩ => ⟨S1024x1024x256, .f32⟩
  | .hbm, ⟨6, _⟩ => ⟨S1024x1024x256, .f32⟩
  | .hbm, ⟨7, _⟩ => ⟨S1024x1024x256, .f32⟩
  | .hbm, ⟨8, _⟩ => ⟨S1024x1024x256, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024, .f32⟩
  | .hbm, ⟨13, _⟩ => ⟨S1x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  bcast_S1024x256_S1024x1x256_0_2 : S1024x256.BroadcastsInDim S1024x1x256 (![0, 2] : Fin 2 → Fin S1024x1x256.rank)
  bcast_S1024x256_S1x1024x256_1_2 : S1024x256.BroadcastsInDim S1x1024x256 (![1, 2] : Fin 2 → Fin S1x1024x256.rank)
  bcast_S1024x1x256_S1024x1024x256_0_1_2 : S1024x1x256.BroadcastsInDim S1024x1024x256 (![0, 1, 2] : Fin 3 → Fin S1024x1024x256.rank)
  bcast_S1x1024x256_S1024x1024x256_0_1_2 : S1x1024x256.BroadcastsInDim S1024x1024x256 (![0, 1, 2] : Fin 3 → Fin S1024x1024x256.rank)
  reducesTo_S1024x1024x256_S1024x1024_d2 : S1024x1024x256.ReducesTo [2] S1024x1024
  h_S_ : 0 < S_.numel
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)

variable [Facts₀]

class Facts : Prop extends Facts₀ where

variable [Facts]
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Consts.lean ====
/-
  The float constants the two programs spell, as the extended reals their patterns denote: the zero both sums
  start from, the factor 2 of the cross term, the factor -1/2 of the Gaussian's exponent, and the factor -2 by
  which the logarithm of a width becomes the logarithm of its inverse square.
-/
import Idealize.ShloMosaic.PureOps.Ideal
import Idealize.ShloMosaic.PureOps.Ideal.Laws

noncomputable section

namespace Cert.Rbf.Consts

open Idealize.ShloMosaic

/-- The pattern of `0.0` denotes `0`. -/
theorem ofBits_zero : Ideal.ofBits .f32 0x00000000#32 = ((0 : ℝ) : EReal) := by
  rw [Ideal.ofBits_zero_f32, EReal.coe_zero]

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `-0.5` denotes the real `-1/2`. -/
theorem ofBits_neg_half : Ideal.ofBits .f32 0xBF000000#32 = ((-(1 / 2) : ℝ) : EReal) := by
  simp [Ideal.ofBits, Ideal.ieee, -EReal.coe_mul]; norm_num

/-- The pattern of `-2.0` denotes the real `-2`. -/
theorem ofBits_neg_two : Ideal.ofBits .f32 0xC0000000#32 = ((-2 : ℝ) : EReal) := by
  simp [Ideal.ofBits, Ideal.ieee, -EReal.coe_mul]; norm_num

end Cert.Rbf.Consts

end
-- ==== Proof.RbfLaw.lean ====
/-
  One entry of the Gaussian radial basis matrix, computed two ways, and the law that makes them one number.

  For a row `a` of the points, a row `b` of the centres (both of length `n`) and a log-width `l`:
  * the EXPANDED form adds the two squared norms, takes twice the inner product away, clamps the difference at zero,
    scales it by `exp (-2 l)` and by `-1/2`, and exponentiates;
  * the DIRECT form sums the squared differences, takes the root, divides the distance by `exp l`, multiplies
    `-1/2` by that quotient twice, and exponentiates.
  On finite entries `Σ a² + Σ b² - 2 Σ a b = Σ (a - b)²`, which is not negative, so the clamp does nothing, the
  root squares back to the sum, and `(1 / exp l)² = exp (-2 l)`: both forms are `exp (-(1/2) · Σ (a - b)² · exp (-2 l))`.
  The expansion of the square distributes a product over a sum, which is why the entries are taken real.
-/
import Mathlib.Analysis.SpecialFunctions.Sqrt
import Mathlib.Analysis.SpecialFunctions.Exp
import Idealize.ShloMosaic.PureOps.Ideal
import Idealize.ShloMosaic.PureOps.Ideal.Laws
import proofs.«120110_j4647154614792_1_alg».proof.Proof.Consts

noncomputable section

namespace Cert.Rbf

open Idealize.ShloMosaic

/-- The expanded form of an entry, from the two squared norms, the inner product and the inverse squared width. -/
def expanded (xsq csq cross inv : EReal) : EReal :=
  Ideal.exp (Ideal.ofBits .f32 0xBF000000#32
    * (max ((xsq + csq) - Ideal.ofBits .f32 0x40000000#32 * cross) (Ideal.ofBits .f32 0x00000000#32) * inv))

/-- The direct form of an entry, from the sum of squared differences and the width. -/
def direct (sumsq width : EReal) : EReal :=
  Ideal.exp ((Ideal.ofBits .f32 0xBF000000#32 * Ideal.div (Ideal.sqrt sumsq) width) * Ideal.div (Ideal.sqrt sumsq) width)

/-- A finite sum of reals, seen in the extended reals, is the sum of its terms seen there. -/
theorem coe_sum {ι : Type} (s : Finset ι) (f : ι → ℝ) : ((∑ k ∈ s, f k : ℝ) : EReal) = ∑ k ∈ s, (f k : EReal) := by
  classical
  induction s using Finset.induction_on with
  | empty => simp
  | insert k s hk ih => rw [Finset.sum_insert hk, Finset.sum_insert hk, EReal.coe_add, ih]

/-- The expansion of the square, summed: `Σ a² + Σ b² - 2 Σ a b = Σ (a - b)²`. -/
theorem expand_sq {ι : Type} [Fintype ι] (a b : ι → ℝ) :
    (∑ k, a k * a k) + (∑ k, b k * b k) - 2 * (∑ k, a k * b k) = ∑ k, (a k - b k) * (a k - b k) := by
  rw [Finset.mul_sum, ← Finset.sum_add_distrib, ← Finset.sum_sub_distrib]
  exact Finset.sum_congr rfl fun k _ => by ring

/-- The expanded form on real entries is the Gaussian of the squared distance over the squared width. -/
theorem expanded_real {ι : Type} [Fintype ι] (a b : ι → ℝ) (l : ℝ) :
    expanded (Ideal.ofBits .f32 0x00000000#32 + ∑ k, (a k : EReal) * (a k : EReal))
        (Ideal.ofBits .f32 0x00000000#32 + ∑ k, (b k : EReal) * (b k : EReal))
        (∑ k, (a k : EReal) * (b k : EReal))
        (Ideal.exp (Ideal.ofBits .f32 0xC0000000#32 * (l : EReal)))
      = ((Real.exp (-(1 / 2) * ((∑ k, (a k - b k) * (a k - b k)) * Real.exp (-2 * l))) : ℝ) : EReal) := by
  have hS : (0 : ℝ) ≤ ∑ k, (a k - b k) * (a k - b k) := Finset.sum_nonneg fun k _ => mul_self_nonneg _
  unfold expanded
  simp only [← EReal.coe_mul, ← coe_sum, Consts.ofBits_zero, Consts.ofBits_two, Consts.ofBits_neg_half,
    Consts.ofBits_neg_two, ← EReal.coe_add, ← EReal.coe_sub, Ideal.exp_coe]
  rw [zero_add, zero_add, expand_sq, max_eq_left (EReal.coe_le_coe_iff.mpr hS), ← EReal.coe_mul, ← EReal.coe_mul, Ideal.exp_coe]

/-- In the reals: the root squares back to a sum that is not negative, and `(1 / exp l)² = exp (-2 l)`. -/
theorem sqrt_over_width_sq (S l : ℝ) (hS : 0 ≤ S) :
    -(1 / 2) * (Real.sqrt S * (1 / Real.exp l)) * (Real.sqrt S * (1 / Real.exp l)) = -(1 / 2) * (S * Real.exp (-2 * l)) := by
  have h2 : Real.exp (-2 * l) = (1 / Real.exp l) * (1 / Real.exp l) := by
    rw [show -2 * l = -l + -l by ring, Real.exp_add, Real.exp_neg, one_div]
  have hs := Real.mul_self_sqrt hS
  calc -(1 / 2) * (Real.sqrt S * (1 / Real.exp l)) * (Real.sqrt S * (1 / Real.exp l))
        = -(1 / 2) * ((Real.sqrt S * Real.sqrt S) * ((1 / Real.exp l) * (1 / Real.exp l))) := by ring
    _ = _ := by rw [hs, h2]

/-- The direct form on real entries is the same Gaussian. -/
theorem direct_real {ι : Type} [Fintype ι] (a b : ι → ℝ) (l : ℝ) :
    direct (Ideal.ofBits .f32 0x00000000#32 + ∑ k, ((a k : EReal) - (b k : EReal)) * ((a k : EReal) - (b k : EReal)))
        (Ideal.exp (l : EReal))
      = ((Real.exp (-(1 / 2) * ((∑ k, (a k - b k) * (a k - b k)) * Real.exp (-2 * l))) : ℝ) : EReal) := by
  have hS : (0 : ℝ) ≤ ∑ k, (a k - b k) * (a k - b k) := Finset.sum_nonneg fun k _ => mul_self_nonneg _
  have he : Real.exp l ≠ 0 := (Real.exp_pos l).ne'
  unfold direct
  simp only [← EReal.coe_sub, ← EReal.coe_mul, ← coe_sum, Consts.ofBits_zero, Consts.ofBits_neg_half,
    ← EReal.coe_add, Ideal.exp_coe]
  rw [zero_add, Ideal.sqrt_coe, if_neg (not_lt.mpr hS), Ideal.div_coe he, ← EReal.coe_mul, ← EReal.coe_mul,
    ← EReal.coe_mul, Ideal.exp_coe, sqrt_over_width_sq _ l hS]

/-- THE LAW: on real entries the expanded and the direct form of an entry are equal. -/
theorem expanded_eq_direct {ι : Type} [Fintype ι] (a b : ι → ℝ) (l : ℝ) :
    expanded (Ideal.ofBits .f32 0x00000000#32 + ∑ k, (a k : EReal) * (a k : EReal))
        (Ideal.ofBits .f32 0x00000000#32 + ∑ k, (b k : EReal) * (b k : EReal))
        (∑ k, (a k : EReal) * (b k : EReal))
        (Ideal.exp (Ideal.ofBits .f32 0xC0000000#32 * (l : EReal)))
      = direct (Ideal.ofBits .f32 0x00000000#32 + ∑ k, ((a k : EReal) - (b k : EReal)) * ((a k : EReal) - (b k : EReal)))
        (Ideal.exp (l : EReal)) := by
  rw [expanded_real, direct_real]

end Cert.Rbf

end
-- ==== Proof.KernelBody.lean ====
/-
  The kernel's body, read at one entry of its output block. At `(p, q)` of a `[256, 1024]` block the body holds
  the expanded form (RbfLaw.lean) of: the squared norm of point row `p` (a `[256, 1]` column broadcast along the
  lanes), the squared norm of centre `q` and its inverse squared width (two `[1, 1024]` rows broadcast down the
  rows), and the inner product of point row `p` with centre row `q` — the matrix product contracts the last axis
  of both operands, so its entry `(p, q)` is `Σ_k points (p, k) · centres (q, k)`.
-/
import proofs.«120110_j4647154614792_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«120110_j4647154614792_1_alg».proof.Proof.LibKeepdims
import proofs.«120110_j4647154614792_1_alg».proof.Proof.RbfLaw

noncomputable section

namespace Cert.Rbf.Body

open Idealize.ShloMosaic Idealize.ShloMosaic.ValueIdx Cert.KernelIdeal Cert.KernelIdeal.Gen

/-! ## The matrix product's operand indices, axis by axis -/

/-- The left operand's row is the output's row. -/
theorem lhs_row (i : S256x1024.Idx) (q : dot_S256x256_S1024x256_S256x1024_1_1_0_0_n_n.contr.Idx) :
    (dot_S256x256_S1024x256_S256x1024_1_1_0_0_n_n.lhsIdx i q 0).val = (i 0).val := by
  unfold DotDims.lhsIdx
  rw [dif_neg (show ¬(0 : Fin S256x256.rank) ∈ dot_S256x256_S1024x256_S256x1024_1_1_0_0_n_n.lhsBatch by decide),
    dif_pos (show (0 : Fin S256x256.rank) ∈ dot_S256x256_S1024x256_S256x1024_1_1_0_0_n_n.lhsNonContracting by decide)]
  rfl

/-- The left operand's column is the contraction index. -/
theorem lhs_col (i : S256x1024.Idx) (q : dot_S256x256_S1024x256_S256x1024_1_1_0_0_n_n.contr.Idx) :
    (dot_S256x256_S1024x256_S256x1024_1_1_0_0_n_n.lhsIdx i q 1).val = (q ⟨0, by decide⟩).val :=
  dot_S256x256_S1024x256_S256x1024_1_1_0_0_n_n.lhsIdx_val_of_single rfl i q

/-- The right operand's row is the output's column: the product is with the centres transposed. -/
theorem rhs_row (i : S256x1024.Idx) (q : dot_S256x256_S1024x256_S256x1024_1_1_0_0_n_n.contr.Idx) :
    (dot_S256x256_S1024x256_S256x1024_1_1_0_0_n_n.rhsIdx i q 0).val = (i 1).val := by
  unfold DotDims.rhsIdx
  rw [dif_neg (show ¬(0 : Fin S1024x256.rank) ∈ dot_S256x256_S1024x256_S256x1024_1_1_0_0_n_n.rhsBatch by decide),
    dif_pos (show (0 : Fin S1024x256.rank) ∈ dot_S256x256_S1024x256_S256x1024_1_1_0_0_n_n.rhsNonContracting by decide)]
  rfl

/-- The right operand's column is the contraction index. -/
theorem rhs_col (i : S256x1024.Idx) (q : dot_S256x256_S1024x256_S256x1024_1_1_0_0_n_n.contr.Idx) :
    (dot_S256x256_S1024x256_S256x1024_1_1_0_0_n_n.rhsIdx i q 1).val = (q ⟨0, by decide⟩).val :=
  dot_S256x256_S1024x256_S256x1024_1_1_0_0_n_n.rhsIdx_val_of_single rfl i q

/-- Entry `(p, q)` of the product into a zero accumulator is the inner product of row `p` of the left operand with
    row `q` of the right one. -/
theorem cross_apply (l : FVec Ideal S256x256 .bf16) (r : FVec Ideal S1024x256 .bf16) (p : Fin 256) (q : Fin 1024) :
    matmul dot_S256x256_S1024x256_S256x1024_1_1_0_0_n_n none l r (constant S256x1024 .f32 0x00000000#32) (ix2 p q)
      = ∑ k : Fin 256, l (ix2 p k) * r (ix2 q k) := by
  simp only [matmul]
  rw [Ideal.matmul_constant_zero_apply,
    ← Equiv.sum_comp (contrEquiv1 dot_S256x256_S1024x256_S256x1024_1_1_0_0_n_n 256 rfl rfl).symm]
  refine Finset.sum_congr rfl fun k _ => ?_
  have hk := contrEquiv1_symm_val dot_S256x256_S1024x256_S256x1024_1_1_0_0_n_n 256 rfl rfl k
  have el : dot_S256x256_S1024x256_S256x1024_1_1_0_0_n_n.lhsIdx (ix2 p q)
      ((contrEquiv1 dot_S256x256_S1024x256_S256x1024_1_1_0_0_n_n 256 rfl rfl).symm k) = ix2 p k :=
    funext fun a => Fin.ext (by
      match a with
      | ⟨0, _⟩ => exact lhs_row _ _
      | ⟨1, _⟩ => exact (lhs_col _ _).trans hk)
  have er : dot_S256x256_S1024x256_S256x1024_1_1_0_0_n_n.rhsIdx (ix2 p q)
      ((contrEquiv1 dot_S256x256_S1024x256_S256x1024_1_1_0_0_n_n 256 rfl rfl).symm k) = ix2 q k :=
    funext fun a => Fin.ext (by
      match a with
      | ⟨0, _⟩ => exact rhs_row _ _
      | ⟨1, _⟩ => exact (rhs_col _ _).trans hk)
  rw [el, er]

/-! ## The body's one store, at an entry -/

/-- The exponential of a vector, read at an index. -/
theorem exp_apply {s : Shape} (a : FVec Ideal s .f32) (i : s.Idx) : exp a i = Ideal.exp (a i) := rfl

/-- A scalar constant of the body denotes what its pattern denotes. -/
theorem scalar_ofBits (b : BitVec FTy.f32.bits) : Scalar.ofBits (F := Ideal) .f32 b = Ideal.ofBits .f32 b := rfl

/-- Entry `(p, q)` of what the body stores: the expanded form of the column's entry `p`, the two rows' entries
    `q`, and the inner product of the two loaded blocks' rows `p` and `q`. -/
theorem payload_apply (pts : Vec Ideal S256x256 .bf16) (ctr : Vec Ideal S1024x256 .bf16) (xsq : Vec Ideal S256x1 .f32)
    (csq inv : Vec Ideal S1x1024 .f32) (p : Fin 256) (q : Fin 1024) :
    k0_pay1 pts ctr xsq csq inv (ix2 p q)
      = expanded (xsq (ix2 p (0 : Fin 1))) (csq (ix2 (0 : Fin 1) q)) (∑ k : Fin 256, pts (ix2 p k) * ctr (ix2 q k))
          (inv (ix2 (0 : Fin 1) q)) := by
  unfold k0_pay1 expanded
  simp only [shapeCast_self, exp_apply, mulf_apply, subf_apply, addf_apply, maximumf_apply, broadcast_apply, scalar_ofBits]
  rw [Cert.LibKeepdims.broadcastTo_a1_ab_apply, broadcastTo_1b_ab_apply, broadcastTo_1b_ab_apply, cross_apply]

end Cert.Rbf.Body

end
-- ==== Proof.KernelHost.lean ====
/-
  What the kernel's region finds in the five arrays it stages, as functions of the three arguments. The host
  computes them before the call: the points and the centres converted to a narrower format (no change on the
  extended reals); the squared norm of every point row, kept as a `[1024, 1]` column; the squared norm of every
  centre row and `exp (-2 · log-width)` of every centre, each recast as a `[1, 1024]` row.
-/
import proofs.«120110_j4647154614792_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.Rbf.Host

open Idealize.ShloMosaic Idealize.ShloMosaic.TcCoe Idealize.ShloMosaic.ValueIdx Idealize.SL.Sem
open Cert.KernelIdeal Cert.KernelIdeal.Gen Idealize.ShloMosaic.StableHlo

variable (m : (ℓ : Loc nD τ sig) → Buf (Elt Ideal) ℓ)

/-- The points, the centres and the log-widths as launched on core `c`. -/
abbrev pts (c : Dev nD) : FVec Ideal S1024x256 .f32 := m ((c : Thread nD τ).loc main_arg0)
abbrev ctr (c : Dev nD) : FVec Ideal S1024x256 .f32 := m ((c : Thread nD τ).loc main_arg1)
abbrev lsg (c : Dev nD) : FVec Ideal S1024 .f32 := m ((c : Thread nD τ).loc main_arg2)

/-- A sum along the rows of a `[1024, 256]` array from a zero start, at row `i`. -/
theorem rowsum_apply (y : FVec Ideal S1024x256 .f32) (i : Fin 1024) :
    Host.reduceAdd y (constant (F := Ideal) S_ .f32 0x00000000#32) reducesTo_S1024x256_S1024_d1 h_S_ (ix1 i)
      = Ideal.ofBits .f32 0x00000000#32 + ∑ k : Fin 256, y (ix2 i k) := by
  simp only [Host.reduceAdd, Ideal.hostReduceAdd_def]
  rw [Ideal.hostReduceAdd_single reducesTo_S1024x256_S1024_d1 (by decide)]
  refine congrArg (_ + ·) (Finset.sum_congr rfl fun k _ => ?_)
  exact congrArg y (funext fun a => Fin.ext (by match a with | ⟨0, _⟩ => rfl | ⟨1, _⟩ => rfl))

/-- The staged points are the points. -/
theorem staged_pts (c : Dev nD) (i : S1024x256.Idx) : (V m c main_v10 : S1024x256.Idx → EReal) i = pts m c i := by
  have e : (V m c main_v10 : S1024x256.Idx → EReal) = truncf .bf16 (pts m c) bitsLt_bf16_f32 := by
    dsimp only [V, hostOps0]; after_results
  rw [e]; rfl

/-- The staged centres are the centres. -/
theorem staged_ctr (c : Dev nD) (i : S1024x256.Idx) : (V m c main_v11 : S1024x256.Idx → EReal) i = ctr m c i := by
  have e : (V m c main_v11 : S1024x256.Idx → EReal) = truncf .bf16 (ctr m c) bitsLt_bf16_f32 := by
    dsimp only [V, hostOps0]; after_results
  rw [e]; rfl

/-- The column of squared norms of the points, at row `i`. -/
theorem staged_xsq (c : Dev nD) (i : Fin 1024) (u : Fin 1) :
    (V m c main_v2 : S1024x1.Idx → EReal) (ix2 i u)
      = Ideal.ofBits .f32 0x00000000#32 + ∑ k : Fin 256, pts m c (ix2 i k) * pts m c (ix2 i k) := by
  have e : (V m c main_v2 : S1024x1.Idx → EReal) = broadcastInDim S1024x1 ![0] bcast_S1024_S1024x1_0
      (Host.reduceAdd (mulf (pts m c) (pts m c)) (constant (F := Ideal) S_ .f32 0x00000000#32) reducesTo_S1024x256_S1024_d1 h_S_) := by
    dsimp only [V, hostOps0]; after_results
  rw [e, broadcastInDim_apply _ bcast_S1024_S1024x1_0 _ (ix2 i u) (ix1 i) (fun a => match a with
    | ⟨0, _⟩ => by show i.val = if (1024 : Nat) = 1 then 0 else i.val; rw [if_neg (by decide)]), rowsum_apply]
  rfl

/-- The row of squared norms of the centres, at column `q`. -/
theorem staged_csq (c : Dev nD) (u : Fin 1) (q : Fin 1024) :
    (V m c main_v8 : S1x1024.Idx → EReal) (ix2 u q)
      = Ideal.ofBits .f32 0x00000000#32 + ∑ k : Fin 256, ctr m c (ix2 q k) * ctr m c (ix2 q k) := by
  have e : (V m c main_v8 : S1x1024.Idx → EReal) = shapeCast S1x1024
      (Host.reduceAdd (mulf (ctr m c) (ctr m c)) (constant (F := Ideal) S_ .f32 0x00000000#32) reducesTo_S1024x256_S1024_d1 h_S_)
      shapeCasts_S1024_S1x1024 := by
    dsimp only [V, hostOps0]; after_results; rfl
  rw [e, shapeCast_a_1a_apply, rowsum_apply]
  rfl

/-- The row of inverse squared widths, at column `q`. -/
theorem staged_inv (c : Dev nD) (u : Fin 1) (q : Fin 1024) :
    (V m c main_v9 : S1x1024.Idx → EReal) (ix2 u q)
      = Ideal.exp (Ideal.ofBits .f32 0xC0000000#32 * lsg m c (ix1 q)) := by
  have e : (V m c main_v9 : S1x1024.Idx → EReal) = shapeCast S1x1024
      (Host.exp (mulf (broadcastInDim S1024 ![] bcast_S_S1024 (constant (F := Ideal) S_ .f32 0xC0000000#32)) (lsg m c)))
      shapeCasts_S1024_S1x1024 := by
    dsimp only [V, hostOps0]; after_results; rfl
  rw [e, shapeCast_a_1a_apply]
  rfl

end Cert.Rbf.Host

end
-- ==== Proof.KernelSpec.lean ====
/-
  What the kernel computes, as one function of the three argument arrays: entry `(r, q)` of the `[1024, 1024]` result
  is the expanded form (RbfLaw.lean) of the squared norm of point row `r`, the squared norm of centre row `q`, their
  inner product, and `exp (-2 · log-width q)`.
-/
import Idealize.ShloMosaic.Lib.ValueIdx
import proofs.«120110_j4647154614792_1_alg».proof.Proof.RbfLaw

noncomputable section

namespace Cert.Rbf.Kernel

open Idealize.ShloMosaic Idealize.ShloMosaic.ValueIdx

/-- Entry `(r, q)` of the kernel's result. -/
def entry (X C : FVec Ideal ⟨2, ![1024, 256]⟩ .f32) (L : FVec Ideal ⟨1, ![1024]⟩ .f32) (r q : Fin 1024) : EReal :=
  expanded (Ideal.ofBits .f32 0x00000000#32 + ∑ k : Fin 256, X (ix2 r k) * X (ix2 r k))
    (Ideal.ofBits .f32 0x00000000#32 + ∑ k : Fin 256, C (ix2 q k) * C (ix2 q k))
    (∑ k : Fin 256, X (ix2 r k) * C (ix2 q k))
    (Ideal.exp (Ideal.ofBits .f32 0xC0000000#32 * L (ix1 q)))

/-- The kernel's result array. -/
def result (X C : FVec Ideal ⟨2, ![1024, 256]⟩ .f32) (L : FVec Ideal ⟨1, ![1024]⟩ .f32) : FVec Ideal ⟨2, ![1024, 1024]⟩ .f32 :=
  fun y => entry X C L (y 0) (y 1)

theorem result_ix2 (X C : FVec Ideal ⟨2, ![1024, 256]⟩ .f32) (L : FVec Ideal ⟨1, ![1024]⟩ .f32) (r q : Fin 1024) :
    result X C L (ix2 r q) = entry X C L r q := rfl

end Cert.Rbf.Kernel

end
-- ==== Proof.KernelArray.lean ====
/-
  From the blocks to the array. The grid has four points. Point `t` stages rows `256 t … 256 t + 255` of the points
  and of the column of their squared norms, all of the centres and the two whole rows, and writes rows
  `256 t … 256 t + 255` of the result. Entry `(p, q)` of the block it writes is the kernel's entry
  `(256 t + p, q)` (KernelSpec.lean), so every block is the restriction of one function of the arguments, and the
  four row bands tile the `[1024, 1024]` array: row `r` lies in the band of point `r / 256`.
-/
import proofs.«120110_j4647154614792_1_alg».proof.Proof.Gen.KernelIdeal.Value
import proofs.«120110_j4647154614792_1_alg».proof.Proof.KernelBody
import proofs.«120110_j4647154614792_1_alg».proof.Proof.KernelHost
import proofs.«120110_j4647154614792_1_alg».proof.Proof.KernelSpec
import Idealize.ShloMosaic.Lib.Pipeline.Value

noncomputable section

namespace Cert.Rbf.Kernel

open Idealize.ShloMosaic Idealize.ShloMosaic.TcCoe Idealize.ShloMosaic.ValueIdx Idealize.SL.Sem
open Cert.KernelIdeal Cert.KernelIdeal.Gen Cert.Rbf.Host
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The six index maps over the four points: the points, their squared norms and the result move down one band of
    rows per point; the centres and the two rows stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## One entry of a block, over any five loaded blocks that hold what the windows stage -/

theorem block_entry (X C : FVec Ideal S1024x256 .f32) (L : FVec Ideal S1024 .f32)
    (b0 : Vec Ideal S256x256 .bf16) (b1 : Vec Ideal S1024x256 .bf16) (b2 : Vec Ideal S256x1 .f32) (b3 b4 : Vec Ideal S1x1024 .f32)
    (p : Fin 256) (q r : Fin 1024)
    (h0 : ∀ k : Fin 256, b0 (ix2 p k) = X (ix2 r k))
    (h1 : ∀ k : Fin 256, b1 (ix2 q k) = C (ix2 q k))
    (h2 : b2 (ix2 p (0 : Fin 1)) = Ideal.ofBits .f32 0x00000000#32 + ∑ k : Fin 256, X (ix2 r k) * X (ix2 r k))
    (h3 : b3 (ix2 (0 : Fin 1) q) = Ideal.ofBits .f32 0x00000000#32 + ∑ k : Fin 256, C (ix2 q k) * C (ix2 q k))
    (h4 : b4 (ix2 (0 : Fin 1) q) = Ideal.exp (Ideal.ofBits .f32 0xC0000000#32 * L (ix1 q))) :
    k0_pay1 b0 b1 b2 b3 b4 (ix2 p q) = entry X C L r q := by
  rw [Body.payload_apply, h2, h3, h4]
  unfold entry
  simp only [h0, h1]

/-! ## The staged blocks, read through their windows -/

/-- Row `p` of the points' block at point `t` is row `256 t + p` of the points. -/
theorem blk_pts (c : Dev nD) (t : Fin cfg0.N) (p k : Fin 256) (r : Fin 1024) (hr : r.val = t.val * 256 + p.val) :
    (iblk m c 0 t : Vec Ideal S256x256 .bf16) (ix2 p k) = pts m c (ix2 r k) := by
  obtain ⟨e0, e1, -⟩ := idx_facts t
  unfold iblk
  rw [View.read_apply]
  show (V m c main_v10 : S1024x256.Idx → EReal) (((cfg0.win 0).blk t).view.emb (ix2 p k)) = _
  rw [staged_pts m c]
  congr 1
  funext a; apply Fin.ext
  match a with
  | ⟨0, _⟩ => show win0_0.index t 0 * 256 + 1 * p.val = r.val; rw [e0, hr]; omega
  | ⟨1, _⟩ => show win0_0.index t 1 * 256 + 1 * k.val = k.val; rw [e1]; omega

/-- The centres' block is all of the centres at every point. -/
theorem blk_ctr (c : Dev nD) (t : Fin cfg0.N) (q : Fin 1024) (k : Fin 256) :
    (iblk m c 1 t : Vec Ideal S1024x256 .bf16) (ix2 q k) = ctr m c (ix2 q k) := by
  obtain ⟨-, -, e0, e1, -⟩ := idx_facts t
  unfold iblk
  rw [View.read_apply]
  show (V m c main_v11 : S1024x256.Idx → EReal) (((cfg0.win 1).blk t).view.emb (ix2 q k)) = _
  rw [staged_ctr m c]
  congr 1
  funext a; apply Fin.ext
  match a with
  | ⟨0, _⟩ => show win0_1.index t 0 * 1024 + 1 * q.val = q.val; rw [e0]; omega
  | ⟨1, _⟩ => show win0_1.index t 1 * 256 + 1 * k.val = k.val; rw [e1]; omega

/-- Entry `p` of the squared norms' block at point `t` is the squared norm of point row `256 t + p`. -/
theorem blk_xsq (c : Dev nD) (t : Fin cfg0.N) (p : Fin 256) (u : Fin 1) (r : Fin 1024) (hr : r.val = t.val * 256 + p.val) :
    (iblk m c 2 t : Vec Ideal S256x1 .f32) (ix2 p u)
      = Ideal.ofBits .f32 0x00000000#32 + ∑ k : Fin 256, pts m c (ix2 r k) * pts m c (ix2 r k) := by
  obtain ⟨-, -, -, -, e0, e1, -⟩ := idx_facts t
  unfold iblk
  rw [View.read_apply]
  show (V m c main_v2 : S1024x1.Idx → EReal) (((cfg0.win 2).blk t).view.emb (ix2 p u)) = _
  have he : ((cfg0.win 2).blk t).view.emb (ix2 p u) = ix2 r u := by
    funext a; apply Fin.ext
    match a with
    | ⟨0, _⟩ => show win0_2.index t 0 * 256 + 1 * p.val = r.val; rw [e0, hr]; omega
    | ⟨1, _⟩ => show win0_2.index t 1 * 1 + 1 * u.val = u.val; rw [e1]; omega
  rw [he, staged_xsq m c]

/-- The centres' squared norms: the one row, whole, at every point. -/
theorem blk_csq (c : Dev nD) (t : Fin cfg0.N) (u : Fin 1) (q : Fin 1024) :
    (iblk m c 3 t : Vec Ideal S1x1024 .f32) (ix2 u q)
      = Ideal.ofBits .f32 0x00000000#32 + ∑ k : Fin 256, ctr m c (ix2 q k) * ctr m c (ix2 q k) := by
  obtain ⟨-, -, -, -, -, -, e0, e1, -⟩ := idx_facts t
  unfold iblk
  rw [View.read_apply]
  show (V m c main_v8 : S1x1024.Idx → EReal) (((cfg0.win 3).blk t).view.emb (ix2 u q)) = _
  have he : ((cfg0.win 3).blk t).view.emb (ix2 u q) = ix2 u q := by
    funext a; apply Fin.ext
    match a with
    | ⟨0, _⟩ => show win0_3.index t 0 * 1 + 1 * u.val = u.val; rw [e0]; omega
    | ⟨1, _⟩ => show win0_3.index t 1 * 1024 + 1 * q.val = q.val; rw [e1]; omega
  rw [he, staged_csq m c]

/-- The inverse squared widths: the one row, whole, at every point. -/
theorem blk_inv (c : Dev nD) (t : Fin cfg0.N) (u : Fin 1) (q : Fin 1024) :
    (iblk m c 4 t : Vec Ideal S1x1024 .f32) (ix2 u q)
      = Ideal.exp (Ideal.ofBits .f32 0xC0000000#32 * lsg m c (ix1 q)) := by
  obtain ⟨-, -, -, -, -, -, -, -, e0, e1, -⟩ := idx_facts t
  unfold iblk
  rw [View.read_apply]
  show (V m c main_v9 : S1x1024.Idx → EReal) (((cfg0.win 4).blk t).view.emb (ix2 u q)) = _
  have he : ((cfg0.win 4).blk t).view.emb (ix2 u q) = ix2 u q := by
    funext a; apply Fin.ext
    match a with
    | ⟨0, _⟩ => show win0_4.index t 0 * 1 + 1 * u.val = u.val; rw [e0]; omega
    | ⟨1, _⟩ => show win0_4.index t 1 * 1024 + 1 * q.val = q.val; rw [e1]; omega
  rw [he, staged_inv m c]

/-! ## What a point writes back, the cover, and the array -/

/-- Point `t` writes back band `t` of the kernel's result function. -/
theorem flushed_eq (c : Dev nD) (t : Fin cfg0.N) :
    (dats m 0 c).flushed 5 t
      = ((cfg0.win 5).blk t).view.read (Elt Ideal) (result (pts m c) (ctr m c) (lsg m c)) := by
  rw [Cert.KernelIdeal.Value.flushed5]
  unfold out0_5
  rw [View.canon_unit_zero hz]
  simp only [View.ld_unit_zero (S := S256x256) hz, View.ld_unit_zero (S := S1024x256) hz,
    View.ld_unit_zero (S := S256x1) hz, View.ld_unit_zero (S := S1x1024) hz]
  obtain ⟨-, -, -, -, -, -, -, -, -, -, e0, e1⟩ := idx_facts t
  have hN : t.val < 4 := by have h := t.isLt; have e : cfg0.N = 4 := N_0; omega
  funext (j : S256x1024.Idx)
  obtain ⟨p, q, rfl⟩ : ∃ (p : Fin 256) (q : Fin 1024), j = ix2 p q := ⟨j 0, j 1, eq_ix2 j⟩
  have hr : t.val * 256 + p.val < 1024 := by have := p.isLt; omega
  have hemb : ((cfg0.win 5).blk t).view.emb (ix2 p q) = ix2 (⟨t.val * 256 + p.val, hr⟩ : Fin 1024) q := by
    funext a; apply Fin.ext
    match a with
    | ⟨0, _⟩ => show win0_5.index t 0 * 256 + 1 * p.val = t.val * 256 + p.val; rw [e0]; omega
    | ⟨1, _⟩ => show win0_5.index t 1 * 1024 + 1 * q.val = q.val; rw [e1]; omega
  show k0_pay1 (iblk m c 0 t) (iblk m c 1 t) (iblk m c 2 t) (iblk m c 3 t) (iblk m c 4 t) (ix2 p q)
      = result (pts m c) (ctr m c) (lsg m c) (((cfg0.win 5).blk t).view.emb (ix2 p q))
  rw [hemb, result_ix2]
  exact block_entry (pts m c) (ctr m c) (lsg m c) (iblk m c 0 t) (iblk m c 1 t) (iblk m c 2 t) (iblk m c 3 t) (iblk m c 4 t)
    p q ⟨t.val * 256 + p.val, hr⟩ (fun k => blk_pts m c t p k _ rfl) (fun k => blk_ctr m c t q k)
    (blk_xsq m c t p 0 _ rfl) (blk_csq m c t 0 q) (blk_inv m c t 0 q)

/-- An index of the result is in point `t`'s block iff each coordinate is in the block's range on its axis. -/
theorem mem_blk (t : Fin cfg0.N) (i : S1024x1024.Idx) :
    i ∈ ((cfg0.win 5).blk t).view.set
      ↔ ∀ a : Fin 2, win0_5.index t a * S256x1024.size a ≤ (i a).val ∧ (i a).val < win0_5.index t a * S256x1024.size a + S256x1024.size a := by
  show i ∈ ((View.whole main_v12).slice (win0_5.rect t)).set ↔ _
  rw [View.set_slice_whole, Rect.mem_set_unit]
  exact Iff.rfl

/-- THE ARRAY after the run is the kernel's result function: row `r` is written by point `r / 256`. -/
theorem final (c : Dev nD) : (dats m 0 c).arrAt 5 cfg0.N = result (pts m c) (ctr m c) (lsg m c) :=
  (dats m 0 c).arrAt_eq_of_cover 5 (result (pts m c) (ctr m c) (lsg m c)) (fun t _ => flushed_eq m c t)
    fun (i : S1024x1024.Idx) => by
      have h0 : (i 0).val < 1024 := (i 0).isLt
      have h1 : (i 1).val < 1024 := (i 1).isLt
      have hN : cfg0.N = 4 := N_0
      have ht : (i 0).val / 256 < cfg0.N := by rw [hN]; omega
      obtain ⟨-, -, -, -, -, -, -, -, -, -, e0, e1⟩ := idx_facts ⟨(i 0).val / 256, ht⟩
      refine ⟨⟨(i 0).val / 256, ht⟩, flush0_5 _, ?_⟩
      rw [mem_blk]
      intro a
      match a with
      | ⟨0, _⟩ =>
        show win0_5.index ⟨(i 0).val / 256, ht⟩ 0 * 256 ≤ (i 0).val ∧ (i 0).val < win0_5.index ⟨(i 0).val / 256, ht⟩ 0 * 256 + 256
        rw [e0]; show (i 0).val / 256 * 256 ≤ (i 0).val ∧ (i 0).val < (i 0).val / 256 * 256 + 256; omega
      | ⟨1, _⟩ =>
        show win0_5.index ⟨(i 0).val / 256, ht⟩ 1 * 1024 ≤ (i 1).val ∧ (i 1).val < win0_5.index ⟨(i 0).val / 256, ht⟩ 1 * 1024 + 1024
        rw [e1]; omega

/-- The kernel's run, read: the result array at the kernel's function of the arguments, the arguments unchanged. -/
theorem run : θ_run defs (onTc (τ := τ) (main (F := Ideal))) ⟨m, fun _ => 0, ρ⟩ fun r => ∀ c : Dev nD,
      r.2.mem ((c : Thread nD τ).loc main_v12) = result (pts m c) (ctr m c) (lsg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Rbf.Kernel

end
-- ==== Proof.RefRead.lean ====
/-
  The reference, read at one entry. Entry `(i, j)` of its result is the direct form (RbfLaw.lean) of row `i` of the
  points, row `j` of the centres and log-width `j`: the two broadcasts to `[1024, 1024, 256]` read the points at
  `(i, k)` and the centres at `(j, k)`, the sum runs over `k`, and the width is broadcast along the rows.
-/
import proofs.«120110_j4647154614792_1_alg».proof.Proof.Gen.ReferenceIdeal.Read
import Idealize.ShloMosaic.Lib.ValueIdx
import proofs.«120110_j4647154614792_1_alg».proof.Proof.RbfLaw

noncomputable section

namespace Cert.Rbf.Ref

open Idealize.ShloMosaic Idealize.ShloMosaic.ValueIdx Cert.ReferenceIdeal Cert.ReferenceIdeal.Read

/-- What the reference computes, as one function of the three argument arrays. -/
def result (x c : FVec Ideal S1024x256 .f32) (ls : FVec Ideal S1024 .f32) : FVec Ideal S1024x1024 .f32 := fun y =>
  direct (Ideal.ofBits .f32 0x00000000#32
      + ∑ k : Fin 256, (x (ix2 (y 0) k) - c (ix2 (y 1) k)) * (x (ix2 (y 0) k) - c (ix2 (y 1) k)))
    (Ideal.exp (ls (ix1 (y 1))))

/-- The reference's last stage is that function. -/
theorem stage_eq (x c : FVec Ideal S1024x256 .f32) (ls : FVec Ideal S1024 .f32) :
    val_main_v15 (F := Ideal) x c ls = result x c ls := by
  funext y
  have ex : ∀ k : Fin 256, idx_main_v0 (idx_main_v2 (idx_main_v6 y k)) = ix2 (y 0) k := fun k =>
    funext fun a => Fin.ext (by match a with | ⟨0, _⟩ => rfl | ⟨1, _⟩ => rfl)
  have ec : ∀ k : Fin 256, idx_main_v1 (idx_main_v3 (idx_main_v6 y k)) = ix2 (y 1) k := fun k =>
    funext fun a => Fin.ext (by match a with | ⟨0, _⟩ => rfl | ⟨1, _⟩ => rfl)
  have el : idx_main_v9 (idx_main_v10 y) = ix1 (y 1) :=
    funext fun a => Fin.ext (by match a with | ⟨0, _⟩ => rfl)
  unfold result direct
  simp only [val_main_v15_apply, val_main_v14_apply, val_main_v13_apply, val_main_v12_apply, val_main_cst_0_apply,
    val_main_v11_apply, val_main_v7_apply, val_main_v6_apply, val_main_v10_apply, val_main_v9_apply, val_main_v8_apply,
    val_main_cst_apply, val_main_v5_apply, val_main_v4_apply, val_main_v2_apply, val_main_v0_apply, val_main_v3_apply,
    val_main_v1_apply, ex, ec, el, Ideal.hostUnary_exp_def, Ideal.hostUnary_sqrt_def, Ideal.hostDivf_def,
    Ideal.mulf_def, Ideal.subf_def, Ideal.ofBits_def]
  rfl

end Cert.Rbf.Ref

end
-- ==== Proof.Finite.lean ====
/-
  From the precondition to real entries. The precondition says of each of the three inputs that every entry's
  absolute value is below `+∞`. On the extended reals `max x (-x) < ⊤` rules out both infinities, so every
  entry of the points, of the centres and of the log-widths is a real number.
-/
import proofs.«120110_j4647154614792_1_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Rbf.Finite

open Idealize.ShloMosaic Cert.Pre_finite_inputs

/-- The scalar shape has one index. -/
instance : Subsingleton S_.Idx := ⟨fun a b => funext fun d => d.elim0⟩

/-- The pattern of `+inf` denotes `⊤`. -/
theorem ofBits_inf : Ideal.ofBits .f32 0x7F800000#32 = ⊤ := by simp [Ideal.ofBits, Ideal.ieee]

/-- An extended real whose absolute value compares below `⊤` is a real. -/
theorem real_of_abs_lt_top (x : EReal) (h : Ideal.cmp .olt (max x (-x)) ⊤ = 1#1) : ∃ r : ℝ, x = (r : EReal) := by
  induction x using EReal.rec with
  | bot => exfalso; revert h; simp [Ideal.cmp]
  | top => exfalso; revert h; simp [Ideal.cmp]
  | coe r => exact ⟨r, rfl⟩

variable [Facts]

/-- Under the precondition every entry of every input is a real. -/
theorem real_of_pre (x c : FVec Ideal S1024x256 .f32) (ls : FVec Ideal S1024 .f32)
    (h : fn (F := Ideal) x c ls = fun _ => 1#1) :
    (∀ i, ∃ r : ℝ, x i = (r : EReal)) ∧ (∀ i, ∃ r : ℝ, c i = (r : EReal)) ∧ (∀ i, ∃ r : ℝ, ls i = (r : EReal)) := by
  have h0 := congrFun h ValueIdx.ix0
  dsimp only [fn] at h0
  obtain ⟨h01, hl⟩ := IntOp.andi_eq_one.1 h0
  obtain ⟨hx, hc⟩ := IntOp.andi_eq_one.1 h01
  refine ⟨fun i => ?_, fun i => ?_, fun i => ?_⟩
  · have e := Host.reduce_andi_all _ _ _ _ _ hx i
    have e' : Ideal.cmp .olt (max (x i) (-(x i))) (Ideal.ofBits .f32 0x7F800000#32) = 1#1 := e
    rw [ofBits_inf] at e'
    exact real_of_abs_lt_top _ e'
  · have e := Host.reduce_andi_all _ _ _ _ _ hc i
    have e' : Ideal.cmp .olt (max (c i) (-(c i))) (Ideal.ofBits .f32 0x7F800000#32) = 1#1 := e
    rw [ofBits_inf] at e'
    exact real_of_abs_lt_top _ e'
  · have e := Host.reduce_andi_all _ _ _ _ _ hl i
    have e' : Ideal.cmp .olt (max (ls i) (-(ls i))) (Ideal.ofBits .f32 0x7F800000#32) = 1#1 := e
    rw [ofBits_inf] at e'
    exact real_of_abs_lt_top _ e'

end Cert.Rbf.Finite

end
-- ==== Proof.Bridge.lean ====
/-
  The bridge: under the precondition the kernel's function of the arguments is the reference's. The precondition makes
  every entry of the points, the centres and the log-widths a real number; at entry `(r, q)` the kernel holds the
  expanded form and the reference the direct form of the same two rows and the same log-width, which RbfLaw.lean's law
  makes equal.
-/
import proofs.«120110_j4647154614792_1_alg».proof.Proof.KernelSpec
import proofs.«120110_j4647154614792_1_alg».proof.Proof.RefRead
import proofs.«120110_j4647154614792_1_alg».proof.Proof.Finite

noncomputable section

namespace Cert.Rbf

open Idealize.ShloMosaic Idealize.ShloMosaic.ValueIdx

theorem bridge [Cert.Pre_finite_inputs.Facts] (x c : FVec Ideal ⟨2, ![1024, 256]⟩ .f32) (ls : FVec Ideal ⟨1, ![1024]⟩ .f32)
    (h : Cert.Pre_finite_inputs.fn (F := Ideal) x c ls = fun _ => 1#1) :
    Kernel.result x c ls = Ref.result x c ls := by
  obtain ⟨hx, hc, hl⟩ := Finite.real_of_pre x c ls h
  choose a ha using hx
  choose b hb using hc
  choose l hl using hl
  funext y
  unfold Kernel.result Kernel.entry Ref.result
  simp only [ha, hb, hl]
  exact expanded_eq_direct (fun k => a (ix2 (y 0) k)) (fun k => b (ix2 (y 1) k)) (l (ix1 (y 1)))

end Cert.Rbf

end
-- ==== Proof.lean ====
/-
  A Gaussian radial basis layer: for 1024 points and 1024 centres in 256 dimensions and a log-width per centre, the
  matrix `exp (-(1/2) · ‖x_i - c_j‖² / σ_j²)`.

  The kernel expands the square: the host sums `x · x` and `c · c` along the rows and takes `exp (-2 log σ)`; each of
  four grid points multiplies a band of 256 point rows with all the centres (contracting the last axis of both),
  forms `‖x‖² + ‖c‖² - 2 x·c`, clamps it at zero, scales it by `exp (-2 log σ)` and by `-1/2`, and exponentiates. The
  reference subtracts every centre from every point, sums the squared differences, takes the root, divides by
  `exp (log σ)`, and exponentiates `-1/2` times that quotient squared.

  On the extended reals the two agree where the inputs are finite, which the precondition says: the expansion of the
  square distributes a product over a sum (Proof/RbfLaw.lean), the sum of squares is not negative so the clamp and the
  root undo nothing, and `(1 / e^l)² = e^(-2l)`. The kernel's array is read block by block off its frame run
  (Proof/KernelBody.lean, KernelHost.lean, KernelArray.lean), the reference's off its run (Proof/RefRead.lean), and the
  two functions of the arguments meet in Proof/Bridge.lean. The idealization rewrote nothing, so `preserves` is `True`.
-/
import proofs.«120110_j4647154614792_1_alg».proof.Defs
import proofs.«120110_j4647154614792_1_alg».proof.Proof.Gen.Kernel
import proofs.«120110_j4647154614792_1_alg».proof.Proof.Gen.Kernel.Skeleton
import proofs.«120110_j4647154614792_1_alg».proof.Proof.Gen.Kernel.Launch
import proofs.«120110_j4647154614792_1_alg».proof.Proof.Gen.Kernel.Points
import proofs.«120110_j4647154614792_1_alg».proof.Proof.Gen.Kernel.Frame
import proofs.«120110_j4647154614792_1_alg».proof.Proof.Gen.KernelIdeal
import proofs.«120110_j4647154614792_1_alg».proof.Proof.Gen.KernelIdeal.Skeleton
import proofs.«120110_j4647154614792_1_alg».proof.Proof.Gen.KernelIdeal.Launch
import proofs.«120110_j4647154614792_1_alg».proof.Proof.Gen.KernelIdeal.Points
import proofs.«120110_j4647154614792_1_alg».proof.Proof.Gen.KernelIdeal.Frame
import proofs.«120110_j4647154614792_1_alg».proof.Proof.Gen.ReferenceIdeal
import proofs.«120110_j4647154614792_1_alg».proof.Proof.Gen.Pre_finite_inputs
import proofs.«120110_j4647154614792_1_alg».proof.Proof.Gen.KernelIdeal.Value
import proofs.«120110_j4647154614792_1_alg».proof.Proof.Gen.ReferenceIdeal.Run
import proofs.«120110_j4647154614792_1_alg».proof.Proof.Gen.ReferenceIdeal.Read
import proofs.«120110_j4647154614792_1_alg».proof.Proof.KernelArray
import proofs.«120110_j4647154614792_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's array ends at its function of the arguments, the reference's at its own; the arguments agree and are
    finite, so the two functions are equal (the bridge). -/
theorem algebraic : Cert.algebraic_KernelIdeal_ReferenceIdeal := by
  intro m ρ m' ρ' hpre hagree
  refine ⟨fun c => Cert.Rbf.Kernel.result (Cert.Rbf.Host.pts m c) (Cert.Rbf.Host.ctr m c) (Cert.Rbf.Host.lsg m c),
    Cert.Rbf.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v15_eq, Cert.Rbf.Ref.stage_eq]
  exact (Cert.Rbf.bridge _ _ _ (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
